-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x16 : Shape := ⟨2, ![4096, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4096x4096 .f32) (main_arg1 : FVec F S4096x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  main_v8
-- ==== Kernel.lean ====
abbrev S4096x4096 : Shape := ⟨2, ![4096, 4096]⟩
abbrev S4096x16 : Shape := ⟨2, ![4096, 16]⟩
abbrev S512x4096 : Shape := ⟨2, ![512, 4096]⟩
abbrev S16x4096 : Shape := ⟨2, ![16, 4096]⟩
abbrev S512x16 : Shape := ⟨2, ![512, 16]⟩
abbrev S16x512 : Shape := ⟨2, ![16, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x16, .f32⟩
  | .local _ .vmem, ⟨3, _⟩ => ⟨S512x4096, .f32⟩
  | .local _ .vmem, ⟨4, _⟩ => ⟨S512x4096, .f32⟩
  | .local _ .vmem, ⟨5, _⟩ => ⟨S4096x16, .bf16⟩
  | .local _ .vmem, ⟨6, _⟩ => ⟨S16x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : Index := Scalar.indexCast v10
  let c0_5 : Index := 0#32
  ![v11.toNat, 0]
def k0_off2 (i : grid0.Coords) : Fin 2 → Nat :=
  let c0_7 : Index := 0#32
  let arg1 : BitVec 32 := BitVec.ofNat 32 (i 1).val
  let c512_i32_6 : BitVec 32 := 512#32
  let v16 : BitVec 32 := Scalar.muli arg1 c512_i32_6
  let v17 : Index := Scalar.indexCast v16
  ![0, v17.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c512_i32 : BitVec 32 := 512#32
  let v6 : BitVec 32 := Scalar.muli arg1 c512_i32
  let v7 : Index := Scalar.indexCast v6
  let c0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S4096x16_S4096x16_0_0 : ∀ a, (![0, 0] : Fin 2 → Nat) a + S4096x16.size a ≤ S4096x16.size a
  h_S4096x16 : 0 < S4096x16.numel
  bitsLt_bf16_f32 : FTy.bits .bf16 < FTy.bits .f32
  h_S512x16 : 0 < S512x16.numel
  shapeCasts_S512x16_S512x16 : S512x16.ShapeCasts S512x16
  transposes_S512x16_p1_0_S16x512 : S512x16.Transposes [1, 0] S16x512
  h_S16x512 : 0 < S16x512.numel
  shapeCasts_S16x512_S16x512 : S16x512.ShapeCasts S16x512
  inb_S16x4096_S16x4096_0_0 : ∀ a, (![0, 0] : Fin 2 → Nat) a + S16x4096.size a ≤ S16x4096.size a
  h_S16x4096 : 0 < S16x4096.numel
  dot_S512x4096_S4096x16_S512x16_1_0_0_1_n_n_wf : DotDims.WF S512x4096 S4096x16 S512x16 [1] [0] [0] [1] [] []
  dot_S512x16_S16x4096_S512x4096_1_0_0_1_n_n_wf : DotDims.WF S512x16 S16x4096 S512x4096 [1] [0] [0] [1] [] []
  hrank0 : 0 < grid0.rank
  k0_off1_inb : ∀ i : grid0.Coords, ∀ (k0_h1 : k0_cond1 i = 1#1), ∀ a, (k0_off1 i) a + S512x16.size a ≤ S4096x16.size a
  k0_off1_packedbf16 : ∀ i : grid0.Coords, ∀ (k0_h1 : k0_cond1 i = 1#1), (Rect.unit (s := S4096x16) (k0_off1 i) S512x16.size (k0_off1_inb i k0_h1)).PackedRows (EltTy.packing .bf16)
  k0_off2_inb : ∀ i : grid0.Coords, ∀ (k0_h1 : k0_cond1 i = 1#1), ∀ a, (k0_off2 i) a + S16x512.size a ≤ S16x4096.size a
  k0_off2_packedbf16 : ∀ i : grid0.Coords, ∀ (k0_h1 : k0_cond1 i = 1#1), (Rect.unit (s := S16x4096) (k0_off2 i) S16x512.size (k0_off2_inb i k0_h1)).PackedRows (EltTy.packing .bf16)
  k0_off3_inb : ∀ i : grid0.Coords, ∀ (k0_h2 : k0_cond2 i = 1#1), ∀ a, (k0_off3 i) a + S512x16.size a ≤ S4096x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)

variable [Facts₀]

def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x16 : Shape := ⟨2, ![4096, 16]⟩
abbrev S16x4096 : Shape := ⟨2, ![16, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x16, .f32⟩
  | .hbm, ⟨3, _⟩ => ⟨S16x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S4096x16_S16x4096_1_0 : S4096x16.Transposes [1, 0] S16x4096
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.BBody.lean ====
/-
  The kernel's body at one grid point, in each of its two phases.

  The grid has two phases of eight points. In the encoding phase (first grid coordinate 0) the body reads a row block of
  the adjacency matrix and the weights, multiplies them, and stores the product twice: as rows `[o, o + 512)` of a
  4096 × 16 scratch, and transposed as columns `[o, o + 512)` of a 16 × 4096 scratch, `o` being 512 times the second
  grid coordinate. Everything else in the two scratches, and the output's staging buffer, is left as found. In the
  decoding phase (first grid coordinate 1) the body reads rows `[o, o + 512)` of the first scratch and the whole second
  scratch, multiplies them, and stores the product over the output's staging buffer; the scratches are left as found.
  Stated for any float instance.
-/
import proofs.«132618_g68917045231885_cont_9to1c4b_61_18_alg».proof.Proof.Gen.Kernel.Frame
import proofs.«132618_g68917045231885_cont_9to1c4b_61_18_alg».proof.Proof.Gen.Kernel.Skeleton
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The point is in the encoding phase. -/
abbrev encodes (i : grid0.Coords) : Prop := k0_cond1 i = 1#1
/-- The point is in the decoding phase. -/
abbrev decodes (i : grid0.Coords) : Prop := k0_cond2 i = 1#1

theorem hz : (![0, 0] : Fin 2 → Nat) = fun _ => 0 := funext fun a => by fin_cases a <;> rfl

/-! ## The scratches after a store, and a row block read back -/

/-- The row-major scratch holding `S0` after 512 rows `v` are stored at the point's row offset. -/
def rowsPut (i : grid0.Coords) (hc0 : encodes i) (arg5 : Memref sig .tc .vmem S4096x16 .bf16) (harg5 : arg5.IsWhole)
    (S0 : Vec F S4096x16 .bf16) (v : FVec F S512x16 .bf16) : Vec F S4096x16 .bf16 :=
  arg5.view.read (Elt F) (arg5.view.writes (Elt F) (harg5.unread S0)
    [(⟨Rect.unit (s := S4096x16) (k0_off1 i) S512x16.size (k0_off1_inb i hc0), v⟩ : View.Piece (Elt F) S4096x16 .bf16)])

/-- The transposed scratch holding `S1` after 512 columns `v` are stored at the point's column offset. -/
def colsPut (i : grid0.Coords) (hc0 : encodes i) (arg6 : Memref sig .tc .vmem S16x4096 .bf16) (harg6 : arg6.IsWhole)
    (S1 : Vec F S16x4096 .bf16) (v : FVec F S16x512 .bf16) : Vec F S16x4096 .bf16 :=
  arg6.view.read (Elt F) (arg6.view.writes (Elt F) (harg6.unread S1)
    [(⟨Rect.unit (s := S16x4096) (k0_off2 i) S16x512.size (k0_off2_inb i hc0), v⟩ : View.Piece (Elt F) S16x4096 .bf16)])

/-- The 512 rows of `S0` at the point's row offset. -/
def rowsGet (i : grid0.Coords) (hc1 : decodes i) (S0 : Vec F S4096x16 .bf16) : Vec F S512x16 .bf16 :=
  View.ld S0 (Rect.unit (s := S4096x16) (k0_off3 i) S512x16.size (k0_off3_inb i hc1))

/-- A stored row reads the stored value. -/
theorem rowsPut_in (i : grid0.Coords) (hc0 : encodes i) (arg5 : Memref sig .tc .vmem S4096x16 .bf16) (harg5 : arg5.IsWhole)
    (S0 : Vec F S4096x16 .bf16) (v : FVec F S512x16 .bf16) {o : ℕ} (ho : k0_off1 i = ![o, 0])
    (r : Fin 4096) (k : Fin 16) (p : Fin 512) (h : r.val = o + p.val) :
    rowsPut i hc0 arg5 harg5 S0 v (ix2 r k) = v (ix2 p k) := by
  unfold rowsPut
  exact View.read_writes_cons_unit_of_mem arg5.view (harg5.unread S0) (k0_off1_inb i hc0) v [] (ix2 r k) (ix2 p k) ho
    (fun a => by
      match a with
      | ⟨0, _⟩ => exact h
      | ⟨1, _⟩ => exact (Nat.zero_add _).symm)

/-- A row outside the stored ones reads what the scratch held. -/
theorem rowsPut_out (i : grid0.Coords) (hc0 : encodes i) (arg5 : Memref sig .tc .vmem S4096x16 .bf16) (harg5 : arg5.IsWhole)
    (S0 : Vec F S4096x16 .bf16) (v : FVec F S512x16 .bf16) {o : ℕ} (ho : k0_off1 i = ![o, 0])
    (r : Fin 4096) (k : Fin 16) (h : r.val < o ∨ o + 512 ≤ r.val) :
    rowsPut i hc0 arg5 harg5 S0 v (ix2 r k) = S0 (ix2 r k) := by
  unfold rowsPut
  rw [View.read_writes_cons_unit_of_not_mem arg5.view (harg5.unread S0) (k0_off1_inb i hc0) v [] (ix2 r k) ho (0 : Fin 2) h,
    View.writes_nil, harg5.read_unread]

/-- A stored column reads the stored value. -/
theorem colsPut_in (i : grid0.Coords) (hc0 : encodes i) (arg6 : Memref sig .tc .vmem S16x4096 .bf16) (harg6 : arg6.IsWhole)
    (S1 : Vec F S16x4096 .bf16) (v : FVec F S16x512 .bf16) {o : ℕ} (ho : k0_off2 i = ![0, o])
    (k : Fin 16) (r : Fin 4096) (p : Fin 512) (h : r.val = o + p.val) :
    colsPut i hc0 arg6 harg6 S1 v (ix2 k r) = v (ix2 k p) := by
  unfold colsPut
  exact View.read_writes_cons_unit_of_mem arg6.view (harg6.unread S1) (k0_off2_inb i hc0) v [] (ix2 k r) (ix2 k p) ho
    (fun a => by
      match a with
      | ⟨0, _⟩ => exact (Nat.zero_add _).symm
      | ⟨1, _⟩ => exact h)

/-- A column outside the stored ones reads what the scratch held. -/
theorem colsPut_out (i : grid0.Coords) (hc0 : encodes i) (arg6 : Memref sig .tc .vmem S16x4096 .bf16) (harg6 : arg6.IsWhole)
    (S1 : Vec F S16x4096 .bf16) (v : FVec F S16x512 .bf16) {o : ℕ} (ho : k0_off2 i = ![0, o])
    (k : Fin 16) (r : Fin 4096) (h : r.val < o ∨ o + 512 ≤ r.val) :
    colsPut i hc0 arg6 harg6 S1 v (ix2 k r) = S1 (ix2 k r) := by
  unfold colsPut
  rw [View.read_writes_cons_unit_of_not_mem arg6.view (harg6.unread S1) (k0_off2_inb i hc0) v [] (ix2 k r) ho (1 : Fin 2) h,
    View.writes_nil, harg6.read_unread]

/-- Row `p` of the block read back is row `o + p` of the scratch. -/
theorem rowsGet_apply (i : grid0.Coords) (hc1 : decodes i) (S0 : Vec F S4096x16 .bf16) {o : ℕ} (ho : k0_off3 i = ![o, 0])
    (r : Fin 4096) (k : Fin 16) (p : Fin 512) (h : r.val = o + p.val) :
    rowsGet i hc1 S0 (ix2 p k) = S0 (ix2 r k) := by
  unfold rowsGet View.ld
  refine congrArg S0 (funext fun a => Fin.ext ?_)
  match a with
  | ⟨0, _⟩ =>
    show k0_off3 i 0 + 1 * p.val = r.val
    rw [ho, h]; show o + 1 * p.val = o + p.val; omega
  | ⟨1, _⟩ =>
    show k0_off3 i 1 + 1 * k.val = k.val
    rw [ho]; show 0 + 1 * k.val = k.val; omega

/-! ## The body's two runs -/

set_option maxHeartbeats 1000000 in
/-- ENCODING PHASE. From the two input blocks `x0`, `x1`, the output's staging buffer at `xi` and the scratches at
    `S0`, `S1`, the body runs to: the inputs and the output's buffer as they were, and each scratch with this point's
    product stored at the point's offset. -/
theorem runEncode (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S512x4096 .f32) (harg4 : arg4.IsWhole) (arg5 : Memref sig .tc .vmem S4096x16 .bf16) (harg5 : arg5.IsWhole) (arg6 : Memref sig .tc .vmem S16x4096 .bf16) (harg6 : arg6.IsWhole) (hc0 : encodes i) (hc1 : ¬decodes i)
    (x0 : Vec F S512x4096 .f32) (x1 : Vec F S4096x16 .f32) (xi : Vec F S512x4096 .f32) (S0 : Vec F S4096x16 .bf16) (S1 : Vec F S16x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare S0 ∗ owns (c : Thread nD τ) arg6 fullShare S1
            ∗ (iprop(owns (c : Thread nD τ) arg2 fullShare x0 ∗ owns (c : Thread nD τ) arg3 fullShare x1 ∗ owns (c : Thread nD τ) arg4 fullShare xi
                ∗ owns (c : Thread nD τ) arg5 fullShare (rowsPut i hc0 arg5 harg5 S0 (k0_pay2 x0 x1))
                ∗ owns (c : Thread nD τ) arg6 fullShare (colsPut i hc0 arg6 harg6 S1 (k0_pay3 x0 x1))) -∗ K ⟨⟩))
          ⊢ wp frame (wpE (defs₀ (F := F)) Variants.none c none) E (cc0__fused_kernel i arg2 harg2 arg3 harg3 arg4 harg4 arg5 harg5 arg6 harg6) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; swap; · iexact HS0
      ipureintro
      unfold rowsPut
      simp only [View.readAt_eq_ld, harg2.read_unread, harg3.read_unread, View.ld_unit_zero (S := S512x4096) hz, View.ld_unit_zero (S := S4096x16) hz]
    iexists _; isplitr; swap; · iexact HS1
    ipureintro
    unfold colsPut
    simp only [View.readAt_eq_ld, harg2.read_unread, harg3.read_unread, View.ld_unit_zero (S := S512x4096) hz, View.ld_unit_zero (S := S4096x16) hz]

set_option maxHeartbeats 1000000 in
/-- DECODING PHASE. From the scratches at `S0`, `S1` (the input blocks and the output's staging buffer at anything),
    the body runs to: everything as it was but the output's buffer, which holds the product of this point's 512 rows
    of `S0` with `S1`. -/
theorem runDecode (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S512x4096 .f32) (harg4 : arg4.IsWhole) (arg5 : Memref sig .tc .vmem S4096x16 .bf16) (harg5 : arg5.IsWhole) (arg6 : Memref sig .tc .vmem S16x4096 .bf16) (harg6 : arg6.IsWhole) (hc0 : ¬encodes i) (hc1 : decodes i)
    (x0 : Vec F S512x4096 .f32) (x1 : Vec F S4096x16 .f32) (S0 : Vec F S4096x16 .bf16) (S1 : Vec F S16x4096 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare S0 ∗ owns (c : Thread nD τ) arg6 fullShare S1
            ∗ (iprop(owns (c : Thread nD τ) arg2 fullShare x0 ∗ owns (c : Thread nD τ) arg3 fullShare x1
                ∗ owns (c : Thread nD τ) arg4 fullShare (k0_pay4 (rowsGet i hc1 S0) S1)
                ∗ owns (c : Thread nD τ) arg5 fullShare S0 ∗ owns (c : Thread nD τ) arg6 fullShare S1) -∗ K ⟨⟩))
          ⊢ wp frame (wpE (defs₀ (F := F)) Variants.none c none) E (cc0__fused_kernel i arg2 harg2 arg3 harg3 arg4 harg4 arg5 harg5 arg6 harg6) K := by
    intro E K
    simp only [cc0__fused_kernel_eq_skeleton]; unfold cc0__fused_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      funext y
      refine (View.read_writes_cons_unit_of_mem arg4.view f2 inb_S512x4096_S512x4096_0_0 _ [] y y hz (fun a => (Nat.zero_add _).symm)).trans ?_
      unfold rowsGet
      simp only [View.readAt_eq_ld, harg5.read_unread, harg6.read_unread, View.ld_unit_zero (S := S16x4096) hz]
    isplitl [HS0]
    · iexists _; isplitr; · ipureintro; exact harg5.read_unread _
      iexact HS0
    iexists _; isplitr; · ipureintro; exact harg6.read_unread _
    iexact HS1

end Cert.Kernel.Body

end
-- ==== Proof.BData.lean ====
/-
  The proof data of the kernel's one pipeline, and its frame run.

  What is carried from point to point lives in two scratches: after `n` points of the encoding phase, rows `[0, 512 n)`
  of the row-major scratch hold those rows of the encoder (each row block's product, as the point that met the block
  stored it), and columns `[0, 512 n)` of the transposed scratch hold the same entries transposed. What the rest of
  either scratch holds is not known (it is whatever the scratch held when the kernel was launched), so the invariant is a
  PREDICATE on the two contents, not a function. After the eighth point both scratches are known whole, and each decoding
  point leaves in the output's staging buffer the product of its 512 encoder rows with the transposed encoder. During
  the encoding phase the output window is idle and is not written back: its block index does not move until the second
  decoding point. Stated for any float instance.
-/
import proofs.«132618_g68917045231885_cont_9to1c4b_61_18_alg».proof.Proof.BBody

set_option maxRecDepth 16384

noncomputable section

namespace Cert.Kernel.Data

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the sixteen points -/

/-- The first eight points encode. -/
theorem hEnc : ∀ t : Fin cfg0.N, encodes (grid0.coords t) ↔ t.val < 8 :=
  (by decide +kernel : ∀ t : Fin grid0.N, encodes (grid0.coords t) ↔ t.val < 8)
/-- The last eight decode. -/
theorem hDec : ∀ t : Fin cfg0.N, decodes (grid0.coords t) ↔ 8 ≤ t.val :=
  (by decide +kernel : ∀ t : Fin grid0.N, decodes (grid0.coords t) ↔ 8 ≤ t.val)
/-- The row offset of an encoding store, the column offset of the transposed one, and the row offset of a decoding
    load: 512 times the point's position within its phase. -/
theorem off1_at : ∀ t : Fin cfg0.N, k0_off1 (grid0.coords t) 0 = 512 * (t.val % 8) ∧ k0_off1 (grid0.coords t) 1 = 0 :=
  (by decide +kernel : ∀ t : Fin grid0.N, k0_off1 (grid0.coords t) 0 = 512 * (t.val % 8) ∧ k0_off1 (grid0.coords t) 1 = 0)
theorem off2_at : ∀ t : Fin cfg0.N, k0_off2 (grid0.coords t) 0 = 0 ∧ k0_off2 (grid0.coords t) 1 = 512 * (t.val % 8) :=
  (by decide +kernel : ∀ t : Fin grid0.N, k0_off2 (grid0.coords t) 0 = 0 ∧ k0_off2 (grid0.coords t) 1 = 512 * (t.val % 8))
theorem off3_at : ∀ t : Fin cfg0.N, k0_off3 (grid0.coords t) 0 = 512 * (t.val % 8) ∧ k0_off3 (grid0.coords t) 1 = 0 :=
  (by decide +kernel : ∀ t : Fin grid0.N, k0_off3 (grid0.coords t) 0 = 512 * (t.val % 8) ∧ k0_off3 (grid0.coords t) 1 = 0)

theorem off1_eq (t : Fin cfg0.N) : k0_off1 (grid0.coords t) = ![512 * (t.val % 8), 0] :=
  funext fun a => by match a with | ⟨0, _⟩ => exact (off1_at t).1 | ⟨1, _⟩ => exact (off1_at t).2
theorem off2_eq (t : Fin cfg0.N) : k0_off2 (grid0.coords t) = ![0, 512 * (t.val % 8)] :=
  funext fun a => by match a with | ⟨0, _⟩ => exact (off2_at t).1 | ⟨1, _⟩ => exact (off2_at t).2
theorem off3_eq (t : Fin cfg0.N) : k0_off3 (grid0.coords t) = ![512 * (t.val % 8), 0] :=
  funext fun a => by match a with | ⟨0, _⟩ => exact (off3_at t).1 | ⟨1, _⟩ => exact (off3_at t).2

/-- The two inputs are never idle. -/
theorem live0 : ∀ t : Fin cfg0.N, cfg0.idle 0 (grid0.coords t) = false := by decide +kernel
theorem live1 : ∀ t : Fin cfg0.N, cfg0.idle 1 (grid0.coords t) = false := by decide +kernel
/-- The output is idle exactly in the encoding phase, and is not written back there. -/
theorem idle2 : ∀ t : Fin cfg0.N, t.val < 8 → cfg0.idle 2 (grid0.coords t) = true :=
  (by decide +kernel : ∀ t : Fin grid0.N, t.val < 8 → cfg0.idle 2 (grid0.coords t) = true)
theorem live2 : ∀ t : Fin cfg0.N, 8 ≤ t.val → cfg0.idle 2 (grid0.coords t) = false :=
  (by decide +kernel : ∀ t : Fin grid0.N, 8 ≤ t.val → cfg0.idle 2 (grid0.coords t) = false)
theorem noFlush2 : ∀ t : Fin cfg0.N, t.val < 8 → (cfg0.win 2).flush t = false :=
  (by decide +kernel : ∀ t : Fin grid0.N, t.val < 8 → win0_2.flush t = false)

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .f32 := win0_2.stage (cfg0.slots t 2)
abbrev hs0_2 (t : Fin cfg0.N) : (ms0_2 t).IsWhole := hstage0_2 ((cfg0.slots t 2).cast nbuf0_2)
/-- The two scratches: whole scoped buffers of the kernel's own. -/
abbrev scM0 : Memref sig .tc .vmem S4096x16 .bf16 := Memref.whole cc0_scratch0
abbrev scM1 : Memref sig .tc .vmem S16x4096 .bf16 := Memref.whole cc0_scratch1

/-- The region's class invariant with the two scratches as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratches hold -/

/-- The adjacency row block and the weights as the body finds them at point `t`. -/
abbrev xblk (c : Dev nD) (t : Fin cfg0.N) : Vec F S512x4096 .f32 := iblk m c 0 t
abbrev wblk (c : Dev nD) (t : Fin cfg0.N) : Vec F S4096x16 .f32 := iblk m c 1 t

/-- The point that meets row `r`: the row's block. -/
def ptOf (r : Fin 4096) : Fin cfg0.N := ⟨r.val / 512, by have := r.isLt; rw [show cfg0.N = 16 from N_0]; omega⟩
/-- The row's position within its block. -/
def inBlk (r : Fin 4096) : Fin 512 := ⟨r.val % 512, Nat.mod_lt _ (by decide)⟩

/-- Entry `(r, k)` of the row-major scratch once row `r`'s point has run: what that point stored there. -/
def zRow (c : Dev nD) (r : Fin 4096) (k : Fin 16) : F .bf16 :=
  k0_pay2 (xblk m c (ptOf r)) (wblk m c (ptOf r)) (ix2 (inBlk r) k)
/-- Entry `(k, r)` of the transposed scratch once row `r`'s point has run. -/
def zCol (c : Dev nD) (k : Fin 16) (r : Fin 4096) : F .bf16 :=
  k0_pay3 (xblk m c (ptOf r)) (wblk m c (ptOf r)) (ix2 k (inBlk r))

/-- The two scratches once the encoding phase is over. -/
def Z0 (c : Dev nD) : Vec F S4096x16 .bf16 := fun j => zRow m c ⟨(j 0).val, (j 0).isLt⟩ ⟨(j 1).val, (j 1).isLt⟩
def Z1 (c : Dev nD) : Vec F S16x4096 .bf16 := fun j => zCol m c ⟨(j 0).val, (j 0).isLt⟩ ⟨(j 1).val, (j 1).isLt⟩

/-- THE INVARIANT after `n` points: the first `512 n` rows (columns) of the two scratches are the encoder's. -/
def Inv (c : Dev nD) (n : ℕ) (S0 : Vec F S4096x16 .bf16) (S1 : Vec F S16x4096 .bf16) : Prop :=
  ∀ (r : Fin 4096) (k : Fin 16), r.val < 512 * n → S0 (ix2 r k) = zRow m c r k ∧ S1 (ix2 k r) = zCol m c k r

/-- An encoding point extends the invariant by its own 512 rows. -/
theorem inv_step (c : Dev nD) (t : Fin cfg0.N) (h0 : t.val < 8) (hc0 : encodes (grid0.coords t))
    (a5 : Memref sig .tc .vmem S4096x16 .bf16) (h5 : a5.IsWhole) (a6 : Memref sig .tc .vmem S16x4096 .bf16) (h6 : a6.IsWhole)
    (S0 : Vec F S4096x16 .bf16) (S1 : Vec F S16x4096 .bf16) (hI : Inv m c t.val S0 S1) :
    Inv m c (t.val + 1) (rowsPut (grid0.coords t) hc0 a5 h5 S0 (k0_pay2 (xblk m c t) (wblk m c t)))
      (colsPut (grid0.coords t) hc0 a6 h6 S1 (k0_pay3 (xblk m c t) (wblk m c t))) := by
  intro r k hr
  have ho1 : k0_off1 (grid0.coords t) = ![512 * t.val, 0] := by rw [off1_eq, Nat.mod_eq_of_lt h0]
  have ho2 : k0_off2 (grid0.coords t) = ![0, 512 * t.val] := by rw [off2_eq, Nat.mod_eq_of_lt h0]
  by_cases hlt : r.val < 512 * t.val
  · rw [rowsPut_out (grid0.coords t) hc0 a5 h5 S0 _ ho1 r k (Or.inl hlt), colsPut_out (grid0.coords t) hc0 a6 h6 S1 _ ho2 k r (Or.inl hlt)]
    exact hI r k hlt
  · have hp : ptOf r = t := Fin.ext (by show r.val / 512 = t.val; omega)
    have hb : r.val = 512 * t.val + (inBlk r).val := by show r.val = 512 * t.val + r.val % 512; omega
    rw [rowsPut_in (grid0.coords t) hc0 a5 h5 S0 _ ho1 r k (inBlk r) hb, colsPut_in (grid0.coords t) hc0 a6 h6 S1 _ ho2 k r (inBlk r) hb]
    unfold zRow zCol
    rw [hp]
    exact ⟨rfl, rfl⟩

/-- Once the encoding phase is over the scratches are known whole. -/
theorem inv_full (c : Dev nD) (n : ℕ) (hn : 8 ≤ n) (S0 : Vec F S4096x16 .bf16) (S1 : Vec F S16x4096 .bf16) (hI : Inv m c n S0 S1) :
    S0 = Z0 m c ∧ S1 = Z1 m c := by
  refine ⟨funext fun j => ?_, funext fun j => ?_⟩
  · obtain ⟨r, k, rfl⟩ : ∃ (r : Fin 4096) (k : Fin 16), j = ix2 r k := ⟨j 0, j 1, eq_ix2 j⟩
    exact (hI r k (by have := r.isLt; omega)).1
  · obtain ⟨k, r, rfl⟩ : ∃ (k : Fin 16) (r : Fin 4096), j = ix2 k r := ⟨j 0, j 1, eq_ix2 j⟩
    exact (hI r k (by have := r.isLt; omega)).2

theorem inv_keep (c : Dev nD) (n : ℕ) (hn : 8 ≤ n) (S0 : Vec F S4096x16 .bf16) (S1 : Vec F S16x4096 .bf16) (hI : Inv m c n S0 S1) :
    Inv m c (n + 1) S0 S1 := fun r k _ => hI r k (by have := r.isLt; omega)

/-- What a decoding point leaves in the output's staging buffer: its 512 encoder rows times the transposed encoder.
    (At an encoding point the window is idle; the value there is never consulted.) -/
def outAt (c : Dev nD) (t : Fin cfg0.N) : Vec F S512x4096 .f32 :=
  if h : 8 ≤ t.val then k0_pay4 (rowsGet (grid0.coords t) ((hDec t).mpr h) (Z0 m c)) (Z1 m c)
  else xblk m c t

theorem outAt_dec (c : Dev nD) (t : Fin cfg0.N) (h : 8 ≤ t.val) :
    outAt m c t = k0_pay4 (rowsGet (grid0.coords t) ((hDec t).mpr h) (Z0 m c)) (Z1 m c) := dif_pos h

/-- The region's invariant before point `n`: before the first, the class's (both scratches at anything); afterwards the
    two scratches at contents satisfying `Inv n`, and the generator register at some state. -/
def PhiS (c : Dev nD) : ℕ → sProp 𝕄
  | 0 => Pipeline.ΦA spec0 c
  | n + 1 => iprop(iprop(∃ S0 S1, ⌜Inv m c (n + 1) S0 S1⌝ ∗ owns (c : Thread nD τ) scM0 fullShare S0 ∗ owns (c : Thread nD τ) scM1 fullShare S1) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ S0 S1, ⌜Inv m c (n + 1) S0 S1⌝ ∗ owns (c : Thread nD τ) scM0 fullShare S0 ∗ owns (c : Thread nD τ) scM1 fullShare S1) ∗ (∃ r, prngReg c r)) := rfl
theorem PhiS_pos (c : Dev nD) (n : ℕ) (hz : n ≠ 0) :
    PhiS m c n = iprop(iprop(∃ S0 S1, ⌜Inv m c n S0 S1⌝ ∗ owns (c : Thread nD τ) scM0 fullShare S0 ∗ owns (c : Thread nD τ) scM1 fullShare S1) ∗ (∃ r, prngReg c r)) := by
  cases n with
  | zero => exact absurd rfl hz
  | succ n => rfl

/-! ## The proof data -/

/-- The arrays as the region finds them; each input's buffer left at its block, the output's at `outAt`; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point. In the encoding phase the invariant hands over the scratches (at anything before the first
    point, at contents satisfying the invariant afterwards), the encoding run applies, and the invariant is given back
    one block further (`inv_step`); the output's buffer goes back as found. In the decoding phase the scratches are
    known whole (`inv_full`), the decoding run applies, and the output's buffer holds this point's product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  by_cases h0 : t.val < 8
  · have hc0 : encodes (grid0.coords t) := (hEnc t).mpr h0
    have hc1 : ¬decodes (grid0.coords t) := fun h => absurd ((hDec t).mp h) (by omega)
    rw [Dat.leavesExact_idle (dats m 0 c) 2 t (idle2 t h0) (noFlush2 t h0)]
    by_cases hz : t.val = 0
    · rw [PhiS_zero m c _ hz, PhiA_eq]
      iintro ⟨⟨⟨⟨%S0, HS0⟩, ⟨%S1, HS1⟩⟩, Hg⟩, Ho, ⟨%d0, H0⟩, ⟨%d1, H1⟩, ⟨%d2, H2⟩⟩
      iapply (runEncode c (grid0.coords t) _ _ _ _ _ _ _ _ _ _ hc0 hc1 (iblk m c 0 t) (iblk m c 1 t) ((dats m 0 c).before 2 t d2) S0 S1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · iexists _, _
          isplitr
          swap
          · isplitl [HS0]; · iexact HS0
            iexact HS1
          ipureintro
          exact inv_step m c t h0 hc0 scM0 (Memref.isWhole_whole _) scM1 (Memref.isWhole_whole _) S0 S1
            (fun r k hr => absurd hr (by rw [hz]; omega))
        iexact Hg
      isplitl [Ho]; · iexact Ho
      isplitl [H0]; · iexact H0
      isplitl [H1]; · iexact H1
      iexists _; iexact H2
    · rw [PhiS_pos m c _ hz]
      iintro ⟨⟨⟨%S0, %S1, %hI, HS0, HS1⟩, Hg⟩, Ho, ⟨%d0, H0⟩, ⟨%d1, H1⟩, ⟨%d2, H2⟩⟩
      iapply (runEncode c (grid0.coords t) _ _ _ _ _ _ _ _ _ _ hc0 hc1 (iblk m c 0 t) (iblk m c 1 t) ((dats m 0 c).before 2 t d2) S0 S1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · iexists _, _
          isplitr
          swap
          · isplitl [HS0]; · iexact HS0
            iexact HS1
          ipureintro
          exact inv_step m c t h0 hc0 scM0 (Memref.isWhole_whole _) scM1 (Memref.isWhole_whole _) S0 S1 hI
        iexact Hg
      isplitl [Ho]; · iexact Ho
      isplitl [H0]; · iexact H0
      isplitl [H1]; · iexact H1
      iexists _; iexact H2
  · have h1 : 8 ≤ t.val := by omega
    have hc0 : ¬encodes (grid0.coords t) := fun h => h0 ((hEnc t).mp h)
    have hc1 : decodes (grid0.coords t) := (hDec t).mpr h1
    rw [show (dats m 0 c).leavesExact 2 t = owns (c : Thread nD τ) (ms0_2 t) fullShare ((dats m 0 c).after 2 t) from by
      unfold Dat.leavesExact; rw [live2 t h1], after0_2, outAt_dec m c t h1]
    rw [PhiS_pos m c _ (by omega : t.val ≠ 0)]
    iintro ⟨⟨⟨%S0, %S1, %hI, HS0, HS1⟩, Hg⟩, Ho, ⟨%d0, H0⟩, ⟨%d1, H1⟩, ⟨%d2, H2⟩⟩
    obtain ⟨rfl, rfl⟩ := inv_full m c t.val h1 S0 S1 hI
    iapply (runDecode c (grid0.coords t) _ _ _ _ _ _ _ _ _ _ hc0 hc1 (iblk m c 0 t) (iblk m c 1 t) (Z0 m c) (Z1 m c) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · iexists _, _
        isplitr
        swap
        · isplitl [HS0]; · iexact HS0
          iexact HS1
        ipureintro
        exact inv_keep m c t.val h1 _ _ hI
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), PhiA_eq]
  iintro ⟨⟨%S0, %S1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, each array of the pipeline at what the proof data computes and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Data

end
-- ==== Proof.KBody.lean ====
/-
  The kernel's body at one grid point, in each of its two phases.

  The grid has two phases of eight points. In the encoding phase (first grid coordinate 0) the body reads a row block of
  the adjacency matrix and the weights, multiplies them, and stores the product twice: as rows `[o, o + 512)` of a
  4096 × 16 scratch, and transposed as columns `[o, o + 512)` of a 16 × 4096 scratch, `o` being 512 times the second
  grid coordinate. Everything else in the two scratches, and the output's staging buffer, is left as found. In the
  decoding phase (first grid coordinate 1) the body reads rows `[o, o + 512)` of the first scratch and the whole second
  scratch, multiplies them, and stores the product over the output's staging buffer; the scratches are left as found.
  Stated for any float instance.
-/
import proofs.«132618_g68917045231885_cont_9to1c4b_61_18_alg».proof.Proof.Gen.KernelIdeal.Frame
import proofs.«132618_g68917045231885_cont_9to1c4b_61_18_alg».proof.Proof.Gen.KernelIdeal.Skeleton
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The point is in the encoding phase. -/
abbrev encodes (i : grid0.Coords) : Prop := k0_cond1 i = 1#1
/-- The point is in the decoding phase. -/
abbrev decodes (i : grid0.Coords) : Prop := k0_cond2 i = 1#1

theorem hz : (![0, 0] : Fin 2 → Nat) = fun _ => 0 := funext fun a => by fin_cases a <;> rfl

/-! ## The scratches after a store, and a row block read back -/

/-- The row-major scratch holding `S0` after 512 rows `v` are stored at the point's row offset. -/
def rowsPut (i : grid0.Coords) (hc0 : encodes i) (arg5 : Memref sig .tc .vmem S4096x16 .bf16) (harg5 : arg5.IsWhole)
    (S0 : Vec F S4096x16 .bf16) (v : FVec F S512x16 .bf16) : Vec F S4096x16 .bf16 :=
  arg5.view.read (Elt F) (arg5.view.writes (Elt F) (harg5.unread S0)
    [(⟨Rect.unit (s := S4096x16) (k0_off1 i) S512x16.size (k0_off1_inb i hc0), v⟩ : View.Piece (Elt F) S4096x16 .bf16)])

/-- The transposed scratch holding `S1` after 512 columns `v` are stored at the point's column offset. -/
def colsPut (i : grid0.Coords) (hc0 : encodes i) (arg6 : Memref sig .tc .vmem S16x4096 .bf16) (harg6 : arg6.IsWhole)
    (S1 : Vec F S16x4096 .bf16) (v : FVec F S16x512 .bf16) : Vec F S16x4096 .bf16 :=
  arg6.view.read (Elt F) (arg6.view.writes (Elt F) (harg6.unread S1)
    [(⟨Rect.unit (s := S16x4096) (k0_off2 i) S16x512.size (k0_off2_inb i hc0), v⟩ : View.Piece (Elt F) S16x4096 .bf16)])

/-- The 512 rows of `S0` at the point's row offset. -/
def rowsGet (i : grid0.Coords) (hc1 : decodes i) (S0 : Vec F S4096x16 .bf16) : Vec F S512x16 .bf16 :=
  View.ld S0 (Rect.unit (s := S4096x16) (k0_off3 i) S512x16.size (k0_off3_inb i hc1))

/-- A stored row reads the stored value. -/
theorem rowsPut_in (i : grid0.Coords) (hc0 : encodes i) (arg5 : Memref sig .tc .vmem S4096x16 .bf16) (harg5 : arg5.IsWhole)
    (S0 : Vec F S4096x16 .bf16) (v : FVec F S512x16 .bf16) {o : ℕ} (ho : k0_off1 i = ![o, 0])
    (r : Fin 4096) (k : Fin 16) (p : Fin 512) (h : r.val = o + p.val) :
    rowsPut i hc0 arg5 harg5 S0 v (ix2 r k) = v (ix2 p k) := by
  unfold rowsPut
  exact View.read_writes_cons_unit_of_mem arg5.view (harg5.unread S0) (k0_off1_inb i hc0) v [] (ix2 r k) (ix2 p k) ho
    (fun a => by
      match a with
      | ⟨0, _⟩ => exact h
      | ⟨1, _⟩ => exact (Nat.zero_add _).symm)

/-- A row outside the stored ones reads what the scratch held. -/
theorem rowsPut_out (i : grid0.Coords) (hc0 : encodes i) (arg5 : Memref sig .tc .vmem S4096x16 .bf16) (harg5 : arg5.IsWhole)
    (S0 : Vec F S4096x16 .bf16) (v : FVec F S512x16 .bf16) {o : ℕ} (ho : k0_off1 i = ![o, 0])
    (r : Fin 4096) (k : Fin 16) (h : r.val < o ∨ o + 512 ≤ r.val) :
    rowsPut i hc0 arg5 harg5 S0 v (ix2 r k) = S0 (ix2 r k) := by
  unfold rowsPut
  rw [View.read_writes_cons_unit_of_not_mem arg5.view (harg5.unread S0) (k0_off1_inb i hc0) v [] (ix2 r k) ho (0 : Fin 2) h,
    View.writes_nil, harg5.read_unread]

/-- A stored column reads the stored value. -/
theorem colsPut_in (i : grid0.Coords) (hc0 : encodes i) (arg6 : Memref sig .tc .vmem S16x4096 .bf16) (harg6 : arg6.IsWhole)
    (S1 : Vec F S16x4096 .bf16) (v : FVec F S16x512 .bf16) {o : ℕ} (ho : k0_off2 i = ![0, o])
    (k : Fin 16) (r : Fin 4096) (p : Fin 512) (h : r.val = o + p.val) :
    colsPut i hc0 arg6 harg6 S1 v (ix2 k r) = v (ix2 k p) := by
  unfold colsPut
  exact View.read_writes_cons_unit_of_mem arg6.view (harg6.unread S1) (k0_off2_inb i hc0) v [] (ix2 k r) (ix2 k p) ho
    (fun a => by
      match a with
      | ⟨0, _⟩ => exact (Nat.zero_add _).symm
      | ⟨1, _⟩ => exact h)

/-- A column outside the stored ones reads what the scratch held. -/
theorem colsPut_out (i : grid0.Coords) (hc0 : encodes i) (arg6 : Memref sig .tc .vmem S16x4096 .bf16) (harg6 : arg6.IsWhole)
    (S1 : Vec F S16x4096 .bf16) (v : FVec F S16x512 .bf16) {o : ℕ} (ho : k0_off2 i = ![0, o])
    (k : Fin 16) (r : Fin 4096) (h : r.val < o ∨ o + 512 ≤ r.val) :
    colsPut i hc0 arg6 harg6 S1 v (ix2 k r) = S1 (ix2 k r) := by
  unfold colsPut
  rw [View.read_writes_cons_unit_of_not_mem arg6.view (harg6.unread S1) (k0_off2_inb i hc0) v [] (ix2 k r) ho (1 : Fin 2) h,
    View.writes_nil, harg6.read_unread]

/-- Row `p` of the block read back is row `o + p` of the scratch. -/
theorem rowsGet_apply (i : grid0.Coords) (hc1 : decodes i) (S0 : Vec F S4096x16 .bf16) {o : ℕ} (ho : k0_off3 i = ![o, 0])
    (r : Fin 4096) (k : Fin 16) (p : Fin 512) (h : r.val = o + p.val) :
    rowsGet i hc1 S0 (ix2 p k) = S0 (ix2 r k) := by
  unfold rowsGet View.ld
  refine congrArg S0 (funext fun a => Fin.ext ?_)
  match a with
  | ⟨0, _⟩ =>
    show k0_off3 i 0 + 1 * p.val = r.val
    rw [ho, h]; show o + 1 * p.val = o + p.val; omega
  | ⟨1, _⟩ =>
    show k0_off3 i 1 + 1 * k.val = k.val
    rw [ho]; show 0 + 1 * k.val = k.val; omega

/-! ## The body's two runs -/

set_option maxHeartbeats 1000000 in
/-- ENCODING PHASE. From the two input blocks `x0`, `x1`, the output's staging buffer at `xi` and the scratches at
    `S0`, `S1`, the body runs to: the inputs and the output's buffer as they were, and each scratch with this point's
    product stored at the point's offset. -/
theorem runEncode (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S512x4096 .f32) (harg4 : arg4.IsWhole) (arg5 : Memref sig .tc .vmem S4096x16 .bf16) (harg5 : arg5.IsWhole) (arg6 : Memref sig .tc .vmem S16x4096 .bf16) (harg6 : arg6.IsWhole) (hc0 : encodes i) (hc1 : ¬decodes i)
    (x0 : Vec F S512x4096 .f32) (x1 : Vec F S4096x16 .f32) (xi : Vec F S512x4096 .f32) (S0 : Vec F S4096x16 .bf16) (S1 : Vec F S16x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare S0 ∗ owns (c : Thread nD τ) arg6 fullShare S1
            ∗ (iprop(owns (c : Thread nD τ) arg2 fullShare x0 ∗ owns (c : Thread nD τ) arg3 fullShare x1 ∗ owns (c : Thread nD τ) arg4 fullShare xi
                ∗ owns (c : Thread nD τ) arg5 fullShare (rowsPut i hc0 arg5 harg5 S0 (k0_pay2 x0 x1))
                ∗ owns (c : Thread nD τ) arg6 fullShare (colsPut i hc0 arg6 harg6 S1 (k0_pay3 x0 x1))) -∗ K ⟨⟩))
          ⊢ wp frame (wpE (defs₀ (F := F)) Variants.none c none) E (cc0__fused_kernel i arg2 harg2 arg3 harg3 arg4 harg4 arg5 harg5 arg6 harg6) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; swap; · iexact HS0
      ipureintro
      unfold rowsPut
      simp only [View.readAt_eq_ld, harg2.read_unread, harg3.read_unread, View.ld_unit_zero (S := S512x4096) hz, View.ld_unit_zero (S := S4096x16) hz]
    iexists _; isplitr; swap; · iexact HS1
    ipureintro
    unfold colsPut
    simp only [View.readAt_eq_ld, harg2.read_unread, harg3.read_unread, View.ld_unit_zero (S := S512x4096) hz, View.ld_unit_zero (S := S4096x16) hz]

set_option maxHeartbeats 1000000 in
/-- DECODING PHASE. From the scratches at `S0`, `S1` (the input blocks and the output's staging buffer at anything),
    the body runs to: everything as it was but the output's buffer, which holds the product of this point's 512 rows
    of `S0` with `S1`. -/
theorem runDecode (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S512x4096 .f32) (harg4 : arg4.IsWhole) (arg5 : Memref sig .tc .vmem S4096x16 .bf16) (harg5 : arg5.IsWhole) (arg6 : Memref sig .tc .vmem S16x4096 .bf16) (harg6 : arg6.IsWhole) (hc0 : ¬encodes i) (hc1 : decodes i)
    (x0 : Vec F S512x4096 .f32) (x1 : Vec F S4096x16 .f32) (S0 : Vec F S4096x16 .bf16) (S1 : Vec F S16x4096 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare S0 ∗ owns (c : Thread nD τ) arg6 fullShare S1
            ∗ (iprop(owns (c : Thread nD τ) arg2 fullShare x0 ∗ owns (c : Thread nD τ) arg3 fullShare x1
                ∗ owns (c : Thread nD τ) arg4 fullShare (k0_pay4 (rowsGet i hc1 S0) S1)
                ∗ owns (c : Thread nD τ) arg5 fullShare S0 ∗ owns (c : Thread nD τ) arg6 fullShare S1) -∗ K ⟨⟩))
          ⊢ wp frame (wpE (defs₀ (F := F)) Variants.none c none) E (cc0__fused_kernel i arg2 harg2 arg3 harg3 arg4 harg4 arg5 harg5 arg6 harg6) K := by
    intro E K
    simp only [cc0__fused_kernel_eq_skeleton]; unfold cc0__fused_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      funext y
      refine (View.read_writes_cons_unit_of_mem arg4.view f2 inb_S512x4096_S512x4096_0_0 _ [] y y hz (fun a => (Nat.zero_add _).symm)).trans ?_
      unfold rowsGet
      simp only [View.readAt_eq_ld, harg5.read_unread, harg6.read_unread, View.ld_unit_zero (S := S16x4096) hz]
    isplitl [HS0]
    · iexists _; isplitr; · ipureintro; exact harg5.read_unread _
      iexact HS0
    iexists _; isplitr; · ipureintro; exact harg6.read_unread _
    iexact HS1

end Cert.KernelIdeal.Body

end
-- ==== Proof.KData.lean ====
/-
  The proof data of the kernel's one pipeline, and its frame run.

  What is carried from point to point lives in two scratches: after `n` points of the encoding phase, rows `[0, 512 n)`
  of the row-major scratch hold those rows of the encoder (each row block's product, as the point that met the block
  stored it), and columns `[0, 512 n)` of the transposed scratch hold the same entries transposed. What the rest of
  either scratch holds is not known (it is whatever the scratch held when the kernel was launched), so the invariant is a
  PREDICATE on the two contents, not a function. After the eighth point both scratches are known whole, and each decoding
  point leaves in the output's staging buffer the product of its 512 encoder rows with the transposed encoder. During
  the encoding phase the output window is idle and is not written back: its block index does not move until the second
  decoding point. Stated for any float instance.
-/
import proofs.«132618_g68917045231885_cont_9to1c4b_61_18_alg».proof.Proof.KBody

set_option maxRecDepth 16384

noncomputable section

namespace Cert.KernelIdeal.Data

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the sixteen points -/

/-- The first eight points encode. -/
theorem hEnc : ∀ t : Fin cfg0.N, encodes (grid0.coords t) ↔ t.val < 8 :=
  (by decide +kernel : ∀ t : Fin grid0.N, encodes (grid0.coords t) ↔ t.val < 8)
/-- The last eight decode. -/
theorem hDec : ∀ t : Fin cfg0.N, decodes (grid0.coords t) ↔ 8 ≤ t.val :=
  (by decide +kernel : ∀ t : Fin grid0.N, decodes (grid0.coords t) ↔ 8 ≤ t.val)
/-- The row offset of an encoding store, the column offset of the transposed one, and the row offset of a decoding
    load: 512 times the point's position within its phase. -/
theorem off1_at : ∀ t : Fin cfg0.N, k0_off1 (grid0.coords t) 0 = 512 * (t.val % 8) ∧ k0_off1 (grid0.coords t) 1 = 0 :=
  (by decide +kernel : ∀ t : Fin grid0.N, k0_off1 (grid0.coords t) 0 = 512 * (t.val % 8) ∧ k0_off1 (grid0.coords t) 1 = 0)
theorem off2_at : ∀ t : Fin cfg0.N, k0_off2 (grid0.coords t) 0 = 0 ∧ k0_off2 (grid0.coords t) 1 = 512 * (t.val % 8) :=
  (by decide +kernel : ∀ t : Fin grid0.N, k0_off2 (grid0.coords t) 0 = 0 ∧ k0_off2 (grid0.coords t) 1 = 512 * (t.val % 8))
theorem off3_at : ∀ t : Fin cfg0.N, k0_off3 (grid0.coords t) 0 = 512 * (t.val % 8) ∧ k0_off3 (grid0.coords t) 1 = 0 :=
  (by decide +kernel : ∀ t : Fin grid0.N, k0_off3 (grid0.coords t) 0 = 512 * (t.val % 8) ∧ k0_off3 (grid0.coords t) 1 = 0)

theorem off1_eq (t : Fin cfg0.N) : k0_off1 (grid0.coords t) = ![512 * (t.val % 8), 0] :=
  funext fun a => by match a with | ⟨0, _⟩ => exact (off1_at t).1 | ⟨1, _⟩ => exact (off1_at t).2
theorem off2_eq (t : Fin cfg0.N) : k0_off2 (grid0.coords t) = ![0, 512 * (t.val % 8)] :=
  funext fun a => by match a with | ⟨0, _⟩ => exact (off2_at t).1 | ⟨1, _⟩ => exact (off2_at t).2
theorem off3_eq (t : Fin cfg0.N) : k0_off3 (grid0.coords t) = ![512 * (t.val % 8), 0] :=
  funext fun a => by match a with | ⟨0, _⟩ => exact (off3_at t).1 | ⟨1, _⟩ => exact (off3_at t).2

/-- The two inputs are never idle. -/
theorem live0 : ∀ t : Fin cfg0.N, cfg0.idle 0 (grid0.coords t) = false := by decide +kernel
theorem live1 : ∀ t : Fin cfg0.N, cfg0.idle 1 (grid0.coords t) = false := by decide +kernel
/-- The output is idle exactly in the encoding phase, and is not written back there. -/
theorem idle2 : ∀ t : Fin cfg0.N, t.val < 8 → cfg0.idle 2 (grid0.coords t) = true :=
  (by decide +kernel : ∀ t : Fin grid0.N, t.val < 8 → cfg0.idle 2 (grid0.coords t) = true)
theorem live2 : ∀ t : Fin cfg0.N, 8 ≤ t.val → cfg0.idle 2 (grid0.coords t) = false :=
  (by decide +kernel : ∀ t : Fin grid0.N, 8 ≤ t.val → cfg0.idle 2 (grid0.coords t) = false)
theorem noFlush2 : ∀ t : Fin cfg0.N, t.val < 8 → (cfg0.win 2).flush t = false :=
  (by decide +kernel : ∀ t : Fin grid0.N, t.val < 8 → win0_2.flush t = false)

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .f32 := win0_2.stage (cfg0.slots t 2)
abbrev hs0_2 (t : Fin cfg0.N) : (ms0_2 t).IsWhole := hstage0_2 ((cfg0.slots t 2).cast nbuf0_2)
/-- The two scratches: whole scoped buffers of the kernel's own. -/
abbrev scM0 : Memref sig .tc .vmem S4096x16 .bf16 := Memref.whole cc0_scratch0
abbrev scM1 : Memref sig .tc .vmem S16x4096 .bf16 := Memref.whole cc0_scratch1

/-- The region's class invariant with the two scratches as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratches hold -/

/-- The adjacency row block and the weights as the body finds them at point `t`. -/
abbrev xblk (c : Dev nD) (t : Fin cfg0.N) : Vec F S512x4096 .f32 := iblk m c 0 t
abbrev wblk (c : Dev nD) (t : Fin cfg0.N) : Vec F S4096x16 .f32 := iblk m c 1 t

/-- The point that meets row `r`: the row's block. -/
def ptOf (r : Fin 4096) : Fin cfg0.N := ⟨r.val / 512, by have := r.isLt; rw [show cfg0.N = 16 from N_0]; omega⟩
/-- The row's position within its block. -/
def inBlk (r : Fin 4096) : Fin 512 := ⟨r.val % 512, Nat.mod_lt _ (by decide)⟩

/-- Entry `(r, k)` of the row-major scratch once row `r`'s point has run: what that point stored there. -/
def zRow (c : Dev nD) (r : Fin 4096) (k : Fin 16) : F .bf16 :=
  k0_pay2 (xblk m c (ptOf r)) (wblk m c (ptOf r)) (ix2 (inBlk r) k)
/-- Entry `(k, r)` of the transposed scratch once row `r`'s point has run. -/
def zCol (c : Dev nD) (k : Fin 16) (r : Fin 4096) : F .bf16 :=
  k0_pay3 (xblk m c (ptOf r)) (wblk m c (ptOf r)) (ix2 k (inBlk r))

/-- The two scratches once the encoding phase is over. -/
def Z0 (c : Dev nD) : Vec F S4096x16 .bf16 := fun j => zRow m c ⟨(j 0).val, (j 0).isLt⟩ ⟨(j 1).val, (j 1).isLt⟩
def Z1 (c : Dev nD) : Vec F S16x4096 .bf16 := fun j => zCol m c ⟨(j 0).val, (j 0).isLt⟩ ⟨(j 1).val, (j 1).isLt⟩

/-- THE INVARIANT after `n` points: the first `512 n` rows (columns) of the two scratches are the encoder's. -/
def Inv (c : Dev nD) (n : ℕ) (S0 : Vec F S4096x16 .bf16) (S1 : Vec F S16x4096 .bf16) : Prop :=
  ∀ (r : Fin 4096) (k : Fin 16), r.val < 512 * n → S0 (ix2 r k) = zRow m c r k ∧ S1 (ix2 k r) = zCol m c k r

/-- An encoding point extends the invariant by its own 512 rows. -/
theorem inv_step (c : Dev nD) (t : Fin cfg0.N) (h0 : t.val < 8) (hc0 : encodes (grid0.coords t))
    (a5 : Memref sig .tc .vmem S4096x16 .bf16) (h5 : a5.IsWhole) (a6 : Memref sig .tc .vmem S16x4096 .bf16) (h6 : a6.IsWhole)
    (S0 : Vec F S4096x16 .bf16) (S1 : Vec F S16x4096 .bf16) (hI : Inv m c t.val S0 S1) :
    Inv m c (t.val + 1) (rowsPut (grid0.coords t) hc0 a5 h5 S0 (k0_pay2 (xblk m c t) (wblk m c t)))
      (colsPut (grid0.coords t) hc0 a6 h6 S1 (k0_pay3 (xblk m c t) (wblk m c t))) := by
  intro r k hr
  have ho1 : k0_off1 (grid0.coords t) = ![512 * t.val, 0] := by rw [off1_eq, Nat.mod_eq_of_lt h0]
  have ho2 : k0_off2 (grid0.coords t) = ![0, 512 * t.val] := by rw [off2_eq, Nat.mod_eq_of_lt h0]
  by_cases hlt : r.val < 512 * t.val
  · rw [rowsPut_out (grid0.coords t) hc0 a5 h5 S0 _ ho1 r k (Or.inl hlt), colsPut_out (grid0.coords t) hc0 a6 h6 S1 _ ho2 k r (Or.inl hlt)]
    exact hI r k hlt
  · have hp : ptOf r = t := Fin.ext (by show r.val / 512 = t.val; omega)
    have hb : r.val = 512 * t.val + (inBlk r).val := by show r.val = 512 * t.val + r.val % 512; omega
    rw [rowsPut_in (grid0.coords t) hc0 a5 h5 S0 _ ho1 r k (inBlk r) hb, colsPut_in (grid0.coords t) hc0 a6 h6 S1 _ ho2 k r (inBlk r) hb]
    unfold zRow zCol
    rw [hp]
    exact ⟨rfl, rfl⟩

/-- Once the encoding phase is over the scratches are known whole. -/
theorem inv_full (c : Dev nD) (n : ℕ) (hn : 8 ≤ n) (S0 : Vec F S4096x16 .bf16) (S1 : Vec F S16x4096 .bf16) (hI : Inv m c n S0 S1) :
    S0 = Z0 m c ∧ S1 = Z1 m c := by
  refine ⟨funext fun j => ?_, funext fun j => ?_⟩
  · obtain ⟨r, k, rfl⟩ : ∃ (r : Fin 4096) (k : Fin 16), j = ix2 r k := ⟨j 0, j 1, eq_ix2 j⟩
    exact (hI r k (by have := r.isLt; omega)).1
  · obtain ⟨k, r, rfl⟩ : ∃ (k : Fin 16) (r : Fin 4096), j = ix2 k r := ⟨j 0, j 1, eq_ix2 j⟩
    exact (hI r k (by have := r.isLt; omega)).2

theorem inv_keep (c : Dev nD) (n : ℕ) (hn : 8 ≤ n) (S0 : Vec F S4096x16 .bf16) (S1 : Vec F S16x4096 .bf16) (hI : Inv m c n S0 S1) :
    Inv m c (n + 1) S0 S1 := fun r k _ => hI r k (by have := r.isLt; omega)

/-- What a decoding point leaves in the output's staging buffer: its 512 encoder rows times the transposed encoder.
    (At an encoding point the window is idle; the value there is never consulted.) -/
def outAt (c : Dev nD) (t : Fin cfg0.N) : Vec F S512x4096 .f32 :=
  if h : 8 ≤ t.val then k0_pay4 (rowsGet (grid0.coords t) ((hDec t).mpr h) (Z0 m c)) (Z1 m c)
  else xblk m c t

theorem outAt_dec (c : Dev nD) (t : Fin cfg0.N) (h : 8 ≤ t.val) :
    outAt m c t = k0_pay4 (rowsGet (grid0.coords t) ((hDec t).mpr h) (Z0 m c)) (Z1 m c) := dif_pos h

/-- The region's invariant before point `n`: before the first, the class's (both scratches at anything); afterwards the
    two scratches at contents satisfying `Inv n`, and the generator register at some state. -/
def PhiS (c : Dev nD) : ℕ → sProp 𝕄
  | 0 => Pipeline.ΦA spec0 c
  | n + 1 => iprop(iprop(∃ S0 S1, ⌜Inv m c (n + 1) S0 S1⌝ ∗ owns (c : Thread nD τ) scM0 fullShare S0 ∗ owns (c : Thread nD τ) scM1 fullShare S1) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ S0 S1, ⌜Inv m c (n + 1) S0 S1⌝ ∗ owns (c : Thread nD τ) scM0 fullShare S0 ∗ owns (c : Thread nD τ) scM1 fullShare S1) ∗ (∃ r, prngReg c r)) := rfl
theorem PhiS_pos (c : Dev nD) (n : ℕ) (hz : n ≠ 0) :
    PhiS m c n = iprop(iprop(∃ S0 S1, ⌜Inv m c n S0 S1⌝ ∗ owns (c : Thread nD τ) scM0 fullShare S0 ∗ owns (c : Thread nD τ) scM1 fullShare S1) ∗ (∃ r, prngReg c r)) := by
  cases n with
  | zero => exact absurd rfl hz
  | succ n => rfl

/-! ## The proof data -/

/-- The arrays as the region finds them; each input's buffer left at its block, the output's at `outAt`; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point. In the encoding phase the invariant hands over the scratches (at anything before the first
    point, at contents satisfying the invariant afterwards), the encoding run applies, and the invariant is given back
    one block further (`inv_step`); the output's buffer goes back as found. In the decoding phase the scratches are
    known whole (`inv_full`), the decoding run applies, and the output's buffer holds this point's product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  by_cases h0 : t.val < 8
  · have hc0 : encodes (grid0.coords t) := (hEnc t).mpr h0
    have hc1 : ¬decodes (grid0.coords t) := fun h => absurd ((hDec t).mp h) (by omega)
    rw [Dat.leavesExact_idle (dats m 0 c) 2 t (idle2 t h0) (noFlush2 t h0)]
    by_cases hz : t.val = 0
    · rw [PhiS_zero m c _ hz, PhiA_eq]
      iintro ⟨⟨⟨⟨%S0, HS0⟩, ⟨%S1, HS1⟩⟩, Hg⟩, Ho, ⟨%d0, H0⟩, ⟨%d1, H1⟩, ⟨%d2, H2⟩⟩
      iapply (runEncode c (grid0.coords t) _ _ _ _ _ _ _ _ _ _ hc0 hc1 (iblk m c 0 t) (iblk m c 1 t) ((dats m 0 c).before 2 t d2) S0 S1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · iexists _, _
          isplitr
          swap
          · isplitl [HS0]; · iexact HS0
            iexact HS1
          ipureintro
          exact inv_step m c t h0 hc0 scM0 (Memref.isWhole_whole _) scM1 (Memref.isWhole_whole _) S0 S1
            (fun r k hr => absurd hr (by rw [hz]; omega))
        iexact Hg
      isplitl [Ho]; · iexact Ho
      isplitl [H0]; · iexact H0
      isplitl [H1]; · iexact H1
      iexists _; iexact H2
    · rw [PhiS_pos m c _ hz]
      iintro ⟨⟨⟨%S0, %S1, %hI, HS0, HS1⟩, Hg⟩, Ho, ⟨%d0, H0⟩, ⟨%d1, H1⟩, ⟨%d2, H2⟩⟩
      iapply (runEncode c (grid0.coords t) _ _ _ _ _ _ _ _ _ _ hc0 hc1 (iblk m c 0 t) (iblk m c 1 t) ((dats m 0 c).before 2 t d2) S0 S1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · iexists _, _
          isplitr
          swap
          · isplitl [HS0]; · iexact HS0
            iexact HS1
          ipureintro
          exact inv_step m c t h0 hc0 scM0 (Memref.isWhole_whole _) scM1 (Memref.isWhole_whole _) S0 S1 hI
        iexact Hg
      isplitl [Ho]; · iexact Ho
      isplitl [H0]; · iexact H0
      isplitl [H1]; · iexact H1
      iexists _; iexact H2
  · have h1 : 8 ≤ t.val := by omega
    have hc0 : ¬encodes (grid0.coords t) := fun h => h0 ((hEnc t).mp h)
    have hc1 : decodes (grid0.coords t) := (hDec t).mpr h1
    rw [show (dats m 0 c).leavesExact 2 t = owns (c : Thread nD τ) (ms0_2 t) fullShare ((dats m 0 c).after 2 t) from by
      unfold Dat.leavesExact; rw [live2 t h1], after0_2, outAt_dec m c t h1]
    rw [PhiS_pos m c _ (by omega : t.val ≠ 0)]
    iintro ⟨⟨⟨%S0, %S1, %hI, HS0, HS1⟩, Hg⟩, Ho, ⟨%d0, H0⟩, ⟨%d1, H1⟩, ⟨%d2, H2⟩⟩
    obtain ⟨rfl, rfl⟩ := inv_full m c t.val h1 S0 S1 hI
    iapply (runDecode c (grid0.coords t) _ _ _ _ _ _ _ _ _ _ hc0 hc1 (iblk m c 0 t) (iblk m c 1 t) (Z0 m c) (Z1 m c) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · iexists _, _
        isplitr
        swap
        · isplitl [HS0]; · iexact HS0
          iexact HS1
        ipureintro
        exact inv_keep m c t.val h1 _ _ hI
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), PhiA_eq]
  iintro ⟨⟨%S0, %S1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, each array of the pipeline at what the proof data computes and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Data

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.KPay.lean ====
/-
  What the kernel's stores hold, entry by entry, over the extended reals.

  In the encoding phase a row block `x` (512 × 4096) of the adjacency matrix is multiplied by the weights `w`
  (4096 × 16): entry `(p, k)` of the block's encoder rows is `∑ j, x (p, j) · w (j, k)`. The narrowing to the
  storage format changes nothing on extended reals. The same entries are stored once as they are (rows `p`) and once
  transposed (columns `p`). In the decoding phase a block `zb` (512 × 16) of encoder rows is multiplied by the whole
  transposed encoder `zt` (16 × 4096): entry `(p, q)` is `∑ k, zb (p, k) · zt (k, q)`.
-/
import proofs.«132618_g68917045231885_cont_9to1c4b_61_18_alg».proof.Proof.Gen.KernelIdeal.Skeleton
import proofs.«132618_g68917045231885_cont_9to1c4b_61_18_alg».proof.Proof.LibMatmulPlain
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx

/-- The encoder rows of one block: the product of the block with the weights, narrowed. -/
theorem pay1_apply (x : Vec Ideal S512x4096 .f32) (w : Vec Ideal S4096x16 .f32) (p : Fin 512) (k : Fin 16) :
    k0_pay1 (F := Ideal) x w (ix2 p k) = ∑ j : Fin 4096, x (ix2 p j) * w (ix2 j k) := by
  unfold k0_pay1
  try dsimp only
  rw [truncf_apply]
  exact Cert.LibMatmulPlain.matmul_zero_apply (M := 512) (K := 4096) (N := 16) x w none p k

/-- What is stored into the row-major copy: the same entries. -/
theorem pay2_apply (x : Vec Ideal S512x4096 .f32) (w : Vec Ideal S4096x16 .f32) (p : Fin 512) (k : Fin 16) :
    k0_pay2 (F := Ideal) x w (ix2 p k) = ∑ j : Fin 4096, x (ix2 p j) * w (ix2 j k) := by
  unfold k0_pay2
  try dsimp only
  rw [shapeCast_self]
  exact pay1_apply x w p k

/-- What is stored into the transposed copy: entry `(k, p)` is the encoder's `(p, k)`. -/
theorem pay3_apply (x : Vec Ideal S512x4096 .f32) (w : Vec Ideal S4096x16 .f32) (k : Fin 16) (p : Fin 512) :
    k0_pay3 (F := Ideal) x w (ix2 k p) = ∑ j : Fin 4096, x (ix2 p j) * w (ix2 j k) := by
  unfold k0_pay3
  try dsimp only
  rw [shapeCast_self]
  rw [transpose_apply [1, 0] (k0_pay1 (F := Ideal) x w) transposes_S512x16_p1_0_S16x512 (ix2 k p) (ix2 p k)
    (fun b => match b with | ⟨0, _⟩ => rfl | ⟨1, _⟩ => rfl)]
  exact pay1_apply x w p k

/-- The decoded block: a block of encoder rows times the transposed encoder. -/
theorem pay4_apply (zb : Vec Ideal S512x16 .bf16) (zt : Vec Ideal S16x4096 .bf16) (p : Fin 512) (q : Fin 4096) :
    k0_pay4 (F := Ideal) zb zt (ix2 p q) = ∑ k : Fin 16, zb (ix2 p k) * zt (ix2 k q) := by
  unfold k0_pay4
  try dsimp only
  exact Cert.LibMatmulPlain.matmul_zero_apply (M := 512) (K := 16) (N := 4096) zb zt none p q

end Cert.KernelIdeal.Pay

end
-- ==== Proof.Spec.lean ====
/-
  The mathematics both programs compute, over the extended reals.

  For an adjacency matrix `a` (4096 × 4096) and a weight matrix `w` (4096 × 16) the encoder's row `r` is
  `z r k = ∑ j, a (r, j) · w (j, k)`, and the decoded matrix is the Gram matrix of the encoder's rows,
  `(r, q) ↦ ∑ k, z r k · z q k`. Both sides of the claim are stated against these two functions.
-/
import Idealize.ShloMosaic.Lib.ValueIdx
import Idealize.ShloMosaic.PureOps.Ideal

noncomputable section

namespace Cert.Gram

open Idealize.ShloMosaic Idealize.ShloMosaic.ValueIdx

/-- Row `r`, feature `k` of the encoder `a · w`. -/
def enc (a : FVec Ideal ⟨2, ![4096, 4096]⟩ .f32) (w : FVec Ideal ⟨2, ![4096, 16]⟩ .f32) (r : Fin 4096) (k : Fin 16) : Ideal .f32 :=
  ∑ j : Fin 4096, a (ix2 r j) * w (ix2 j k)

/-- The Gram matrix of the encoder's rows: entry `(r, q)` is the inner product of rows `r` and `q`. -/
def gram (a : FVec Ideal ⟨2, ![4096, 4096]⟩ .f32) (w : FVec Ideal ⟨2, ![4096, 16]⟩ .f32) : FVec Ideal ⟨2, ![4096, 4096]⟩ .f32 :=
  fun i => ∑ k : Fin 16, enc a w (i 0) k * enc a w (i 1) k

theorem gram_apply (a : FVec Ideal ⟨2, ![4096, 4096]⟩ .f32) (w : FVec Ideal ⟨2, ![4096, 16]⟩ .f32) (r q : Fin 4096) :
    gram a w (ix2 r q) = ∑ k : Fin 16, enc a w r k * enc a w q k := rfl

end Cert.Gram

end
-- ==== Proof.KValue.lean ====
/-
  The kernel's result array, over the extended reals: the Gram matrix of the encoder's rows.

  The adjacency row block an encoding point reads is rows `[512 t, 512 t + 512)` of the adjacency matrix, and the
  weights' block is the weights. So the entries the encoding phase stores are the encoder's, and once it is over the
  row-major scratch is the encoder and the other its transpose. Decoding point `8 + b` multiplies rows
  `[512 b, 512 b + 512)` of the encoder by the transposed encoder: entry `(p, q)` of its product is the inner product
  of encoder rows `512 b + p` and `q`, which is entry `(512 b + p, q)` of the Gram matrix. That block is written back
  to rows `[512 b, 512 b + 512)` of the result, and the eight decoding points' blocks cover every row.
-/
import proofs.«132618_g68917045231885_cont_9to1c4b_61_18_alg».proof.Proof.KData
import proofs.«132618_g68917045231885_cont_9to1c4b_61_18_alg».proof.Proof.KPay
import proofs.«132618_g68917045231885_cont_9to1c4b_61_18_alg».proof.Proof.Spec

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Body Cert.KernelIdeal.Data Cert.KernelIdeal.Pay

local notation "𝕄" => MT nD τ sig Unit (Elt Ideal) ℕ (UR sig nD τ) ℕ

variable (m : (ℓ : Loc nD τ sig) → Buf (Elt Ideal) ℓ) (ρ : Dev nD → PrngReg)

/-- The two argument arrays as launched. -/
abbrev adj (c : Dev nD) : FVec Ideal S4096x4096 .f32 := m ((c : Thread nD τ).loc main_arg0)
abbrev wts (c : Dev nD) : FVec Ideal S4096x16 .f32 := m ((c : Thread nD τ).loc main_arg1)

/-! ## The printed index maps, decided over the sixteen points -/

theorem idx0 : ∀ t : Fin cfg0.N, win0_0.index t (0 : Fin 2) = (if t.val < 8 then t.val else 7) ∧ win0_0.index t (1 : Fin 2) = 0 :=
  (by decide +kernel : ∀ t : Fin grid0.N, win0_0.index t (0 : Fin 2) = (if t.val < 8 then t.val else 7) ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = (if t.val < 8 then 0 else t.val - 8) ∧ win0_2.index t (1 : Fin 2) = 0 :=
  (by decide +kernel : ∀ t : Fin grid0.N, win0_2.index t (0 : Fin 2) = (if t.val < 8 then 0 else t.val - 8) ∧ win0_2.index t (1 : Fin 2) = 0)
/-- Every decoding point writes its block back. -/
theorem flush2 : ∀ t : Fin cfg0.N, 8 ≤ t.val → (cfg0.win 2).flush t = true :=
  (by decide +kernel : ∀ t : Fin grid0.N, 8 ≤ t.val → win0_2.flush t = true)

/-! ## The input blocks -/

/-- Row `p` of the adjacency block at encoding point `t` is row `512 t + p` of the adjacency matrix. -/
theorem xblk_apply (c : Dev nD) (t : Fin cfg0.N) (h0 : t.val < 8) (p : Fin 512) (j : Fin 4096) (r : Fin 4096)
    (hr : r.val = 512 * t.val + p.val) : xblk m c t (ix2 p j) = adj m c (ix2 r j) := by
  unfold xblk iblk
  rw [View.read_apply]
  show V m c main_arg0 _ = m (c.tc.loc main_arg0) _
  unfold V
  congr 1
  funext a
  apply Fin.ext
  match a with
  | ⟨0, _⟩ => show win0_0.index t (0 : Fin 2) * 512 + 1 * p.val = r.val; rw [(idx0 t).1, if_pos h0]; omega
  | ⟨1, _⟩ => show win0_0.index t (1 : Fin 2) * 4096 + 1 * j.val = j.val; rw [(idx0 t).2]; omega

/-- The weights' block is the weights. -/
theorem wblk_apply (c : Dev nD) (t : Fin cfg0.N) (j : Fin 4096) (k : Fin 16) : wblk m c t (ix2 j k) = wts m c (ix2 j k) := by
  unfold wblk iblk
  rw [View.read_apply]
  show V m c main_arg1 _ = m (c.tc.loc main_arg1) _
  unfold V
  congr 1
  funext a
  apply Fin.ext
  match a with
  | ⟨0, _⟩ => show win0_1.index t (0 : Fin 2) * 4096 + 1 * j.val = j.val; rw [(idx1 t).1]; omega
  | ⟨1, _⟩ => show win0_1.index t (1 : Fin 2) * 16 + 1 * k.val = k.val; rw [(idx1 t).2]; omega

/-! ## The scratches are the encoder and its transpose -/

theorem ptOf_lt (r : Fin 4096) : (ptOf r).val < 8 := by show r.val / 512 < 8; have := r.isLt; omega
theorem row_split (r : Fin 4096) : r.val = 512 * (ptOf r).val + (inBlk r).val := by
  show r.val = 512 * (r.val / 512) + r.val % 512; omega

theorem zRow_eq (c : Dev nD) (r : Fin 4096) (k : Fin 16) : zRow m c r k = Cert.Gram.enc (adj m c) (wts m c) r k := by
  unfold zRow
  rw [pay2_apply]
  unfold Cert.Gram.enc
  refine Finset.sum_congr rfl fun j _ => ?_
  rw [xblk_apply m c (ptOf r) (ptOf_lt r) (inBlk r) j r (row_split r), wblk_apply]

theorem zCol_eq (c : Dev nD) (k : Fin 16) (r : Fin 4096) : zCol m c k r = Cert.Gram.enc (adj m c) (wts m c) r k := by
  unfold zCol
  rw [pay3_apply]
  unfold Cert.Gram.enc
  refine Finset.sum_congr rfl fun j _ => ?_
  rw [xblk_apply m c (ptOf r) (ptOf_lt r) (inBlk r) j r (row_split r), wblk_apply]

/-! ## A decoding point's block -/

/-- Entry `y` of what decoding point `t` leaves in the output's staging buffer is the Gram matrix's entry at row
    `512 (t - 8) + y₀`, column `y₁`. -/
theorem outAt_apply (c : Dev nD) (t : Fin cfg0.N) (h : 8 ≤ t.val) (y : S512x4096.Idx) (i : S4096x4096.Idx)
    (h0 : (i 0).val = 512 * (t.val - 8) + (y 0).val) (h1 : (i 1).val = (y 1).val) :
    outAt m c t y = Cert.Gram.gram (adj m c) (wts m c) i := by
  have hN : t.val < 16 := lt_of_lt_of_eq t.isLt (show cfg0.N = 16 from N_0)
  obtain ⟨p, q', rfl⟩ : ∃ (p : Fin 512) (q' : Fin 4096), y = ix2 p q' := ⟨y 0, y 1, eq_ix2 y⟩
  obtain ⟨r, q, rfl⟩ : ∃ (r : Fin 4096) (q : Fin 4096), i = ix2 r q := ⟨i 0, i 1, eq_ix2 i⟩
  obtain rfl : q' = q := Fin.ext h1.symm
  rw [outAt_dec m c t h, pay4_apply, Cert.Gram.gram_apply]
  refine Finset.sum_congr rfl fun k _ => ?_
  rw [rowsGet_apply (grid0.coords t) _ (Z0 m c) (off3_eq t) r k p (by have : r.val = 512 * (t.val - 8) + p.val := h0; omega)]
  show zRow m c r k * zCol m c k q' = _
  rw [zRow_eq, zCol_eq]

/-! ## From blocks to the array -/

/-- What a flushing point writes back is its block of the Gram matrix. -/
theorem flushed_eq (c : Dev nD) (t : Fin cfg0.N) (hf : (cfg0.win 2).flush t = true) :
    (dats m 0 c).flushed 2 t = ((cfg0.win 2).blk t).view.read (Elt Ideal) (Cert.Gram.gram (adj m c) (wts m c)) := by
  have h8 : 8 ≤ t.val := by
    by_contra h
    rw [noFlush2 t (by omega)] at hf
    exact Bool.false_ne_true hf
  show (cfg0.win 2).cut (grid0.coords t) ((dats m 0 c).after 2 t) = _
  rw [after0_2]
  funext j
  show outAt m c t j = Cert.Gram.gram (adj m c) (wts m c) (((cfg0.win 2).blk t).view.emb j)
  refine outAt_apply m c t h8 j _ ?_ ?_
  · show win0_2.index t (0 : Fin 2) * 512 + 1 * (j 0).val = 512 * (t.val - 8) + (j 0).val
    rw [(idx2 t).1, if_neg (by omega)]; omega
  · show win0_2.index t (1 : Fin 2) * 4096 + 1 * (j 1).val = (j 1).val
    rw [(idx2 t).2]; omega

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v0).slice (win0_2.rect t)).set ↔ _
  rw [View.set_slice_whole, Rect.mem_set_unit]
  exact Iff.rfl

/-- Every row of the result is in the block of the decoding point that computes it. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  let t : Fin cfg0.N := ⟨8 + (i 0).val / 512, by rw [show cfg0.N = 16 from N_0]; omega⟩
  have ht : t.val = 8 + (i 0).val / 512 := rfl
  refine ⟨t, flush2 t (by omega), ?_⟩
  rw [mem_blk]
  intro a
  match a with
  | ⟨0, _⟩ =>
    show win0_2.index t (0 : Fin 2) * 512 ≤ (i 0).val ∧ (i 0).val < win0_2.index t (0 : Fin 2) * 512 + 512
    rw [(idx2 t).1, if_neg (by omega)]; omega
  | ⟨1, _⟩ =>
    show win0_2.index t (1 : Fin 2) * 4096 ≤ (i 1).val ∧ (i 1).val < win0_2.index t (1 : Fin 2) * 4096 + 4096
    rw [(idx2 t).2]; omega

/-- The result array after the run is the Gram matrix of the encoder's rows. -/
theorem final (c : Dev nD) : (dats m 0 c).arrAt 2 cfg0.N = Cert.Gram.gram (adj m c) (wts m c) :=
  (dats m 0 c).arrAt_eq_of_cover 2 (Cert.Gram.gram (adj m c) (wts m c)) (fun t hf => flushed_eq m c t hf) (cover)

/-- The run, read: the result at the Gram matrix, the two arguments as launched. -/
theorem run : θ_run defs (onTc (τ := τ) (main (F := Ideal))) ⟨m, fun _ => 0, ρ⟩ fun r => ∀ c : Dev nD,
      r.2.mem ((c.tc : Thread nD τ).loc main_v0) = Cert.Gram.gram (adj m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans (A_eq m c 0)),
      ((h c).1 1).trans (((dats m 0 c).arrAt_in 1 rfl _).trans (A_eq m c 1))⟩)
    (run_main m ρ)

end Cert.KernelIdeal.KValue

end
-- ==== Proof.RefValue.lean ====
/-
  The reference's result is the Gram matrix of the encoder's rows.

  The reference multiplies the adjacency matrix by the weights, transposes the product, and multiplies the product by
  its transpose. Entry `(r, q)` of the last product is `∑ k, z (r, k) · zᵀ (k, q)`; the transpose read at `(k, q)` is
  `z (q, k)`; and `z (r, k) = ∑ j, a (r, j) · w (j, k)`. So the entry is the inner product of rows `r` and `q` of `z`.
-/
import proofs.«132618_g68917045231885_cont_9to1c4b_61_18_alg».proof.Proof.Gen.ReferenceIdeal.Read
import proofs.«132618_g68917045231885_cont_9to1c4b_61_18_alg».proof.Proof.Spec

noncomputable section

namespace Cert.ReferenceIdeal.RefValue

open Cert.ReferenceIdeal Cert.ReferenceIdeal.Read Idealize.ShloMosaic Idealize.ShloMosaic.ValueIdx

/-- The first product at `(r, k)` is the encoder's entry. -/
theorem enc_eq (a : (⟨S4096x4096, .f32⟩ : BufTy).Contents (Elt Ideal)) (w : (⟨S4096x16, .f32⟩ : BufTy).Contents (Elt Ideal))
    (r : Fin 4096) (k : Fin 16) : val_main_v0 (F := Ideal) a w (ix2 r k) = Cert.Gram.enc a w r k := by
  rw [val_main_v0_apply]
  unfold Cert.Gram.enc
  refine Finset.sum_congr rfl fun j _ => ?_
  have el : lidx_main_v0 (ix2 r k) j = ix2 r j := funext fun d => Fin.ext (by match d with | ⟨0, _⟩ => rfl | ⟨1, _⟩ => rfl)
  have er : ridx_main_v0 (ix2 r k) j = ix2 j k := funext fun d => Fin.ext (by match d with | ⟨0, _⟩ => rfl | ⟨1, _⟩ => rfl)
  rw [el, er]

/-- The reference's result, as a function of its two arguments, is the Gram matrix of the encoder's rows. -/
theorem result_eq (a : (⟨S4096x4096, .f32⟩ : BufTy).Contents (Elt Ideal)) (w : (⟨S4096x16, .f32⟩ : BufTy).Contents (Elt Ideal)) :
    val_main_v2 (F := Ideal) a w = Cert.Gram.gram a w := by
  funext i
  obtain ⟨r, q, rfl⟩ : ∃ (r : Fin 4096) (q : Fin 4096), i = ix2 r q := ⟨i 0, i 1, eq_ix2 i⟩
  rw [val_main_v2_apply, Cert.Gram.gram_apply]
  refine Finset.sum_congr rfl fun k _ => ?_
  rw [val_main_v1_apply]
  have el : lidx_main_v2 (ix2 r q) k = ix2 r k := funext fun d => Fin.ext (by match d with | ⟨0, _⟩ => rfl | ⟨1, _⟩ => rfl)
  have er : idx_main_v1 (ridx_main_v2 (ix2 r q) k) = ix2 q k := funext fun d => Fin.ext (by match d with | ⟨0, _⟩ => rfl | ⟨1, _⟩ => rfl)
  rw [el, er, enc_eq, enc_eq]

end Cert.ReferenceIdeal.RefValue

end
-- ==== Proof.lean ====
/-
  The claim: a graph auto-encoder's forward pass as one two-phase kernel, against its two matrix products.

  The kernel encodes `z = a · w` block by block into two scratches (the encoder and its transpose) in its first eight
  grid points and decodes `z · zᵀ` block by block in its last eight; the reference multiplies, transposes and
  multiplies. Over the extended reals both results are the Gram matrix of the encoder's rows (Proof/Spec.lean):
  the kernel's by Proof/KValue.lean (over the body's two runs, Proof/KBody.lean, the invariant on the scratches and
  the frame run, Proof/KData.lean, and the stores' entries, Proof/KPay.lean), the reference's by Proof/RefValue.lean.
  The two sides are the same sums of the same products in the same order, so no law of the extended reals is used and
  the precondition is never opened. The word-level kernel's frame is the same argument at the word instance
  (Proof/BBody.lean, Proof/BData.lean). The ideal pass rewrote nothing, so `preserves` is `True`.
-/
import proofs.«132618_g68917045231885_cont_9to1c4b_61_18_alg».proof.Defs
import proofs.«132618_g68917045231885_cont_9to1c4b_61_18_alg».proof.Proof.Gen.Kernel
import proofs.«132618_g68917045231885_cont_9to1c4b_61_18_alg».proof.Proof.Gen.KernelIdeal
import proofs.«132618_g68917045231885_cont_9to1c4b_61_18_alg».proof.Proof.Gen.ReferenceIdeal
import proofs.«132618_g68917045231885_cont_9to1c4b_61_18_alg».proof.Proof.Gen.Pre_finite_inputs
import proofs.«132618_g68917045231885_cont_9to1c4b_61_18_alg».proof.Proof.Gen.ReferenceIdeal.Run
import proofs.«132618_g68917045231885_cont_9to1c4b_61_18_alg».proof.Proof.Gen.ReferenceIdeal.Read
import proofs.«132618_g68917045231885_cont_9to1c4b_61_18_alg».proof.Proof.BData
import proofs.«132618_g68917045231885_cont_9to1c4b_61_18_alg».proof.Proof.KData
import proofs.«132618_g68917045231885_cont_9to1c4b_61_18_alg».proof.Proof.KValue
import proofs.«132618_g68917045231885_cont_9to1c4b_61_18_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Data.frame (F := Bits) m ρ

/-- So does the idealized kernel. -/
theorem frame_ki : Cert.frame_KernelIdeal := fun m ρ _ => Cert.KernelIdeal.Data.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the Gram matrix of the encoder's rows of the (agreeing) arguments. -/
theorem algebraic : Cert.algebraic_KernelIdeal_ReferenceIdeal := by
  intro m ρ m' ρ' _ hagree
  refine ⟨fun c => Cert.Gram.gram (Cert.KernelIdeal.KValue.adj m c) (Cert.KernelIdeal.KValue.wts m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
